-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x16 : Shape := ⟨2, ![4096, 16]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x16 : S_.BroadcastsInDim S4096x16 (![] : Fin 0 → Fin S4096x16.rank)
  reducesTo_S4096x16_S_d0_1 : S4096x16.ReducesTo [0, 1] S_

variable [Facts]

def fn {F : FTy → Type} [FloatOps F] (main_arg0 : FVec F S4x4096x4096 .f32) (main_arg1 : FVec F S4096x16 .f32) (main_arg2 : FVec F S4096x16 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  main_v13
-- ==== Kernel.lean ====
abbrev S4x4096x4096 : Shape := ⟨3, ![4, 4096, 4096]⟩
abbrev S4096x16 : Shape := ⟨2, ![4096, 16]⟩
abbrev S16384x4096 : Shape := ⟨2, ![16384, 4096]⟩
abbrev S256x4096 : Shape := ⟨2, ![256, 4096]⟩
abbrev S256x16 : Shape := ⟨2, ![256, 16]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4096x16, .f32⟩
  | .hbm, ⟨2, _⟩ => ⟨S4096x16, .f32⟩
  | .hbm, ⟨3, _⟩ => ⟨S16384x4096, .f32⟩
  | .hbm, ⟨4, _⟩ => ⟨S16384x4096, .f32⟩
  | .hbm, ⟨5, _⟩ => ⟨S4x4096x4096, .f32⟩
  | .local _ .vmem, ⟨0, _⟩ => ⟨S256x4096, .f32⟩
  | .local _ .vmem, ⟨1, _⟩ => ⟨S256x4096, .f32⟩
  | .local _ .vmem, ⟨2, _⟩ => ⟨S4096x16, .f32⟩
  | .local _ .vmem, ⟨3, _⟩ => ⟨S4096x16, .f32⟩
  | .local _ .vmem, ⟨4, _⟩ => ⟨S256x4096, .f32⟩
  | .local _ .vmem, ⟨5, _⟩ => ⟨S256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x4096x4096_S16384x4096 : S4x4096x4096.ShapeCasts S16384x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  bitsLt_bf16_f32 : FTy.bits .bf16 < FTy.bits .f32
  inb_S4096x16_S4096x16_0_0 : ∀ a, (![0, 0] : Fin 2 → Nat) a + S4096x16.size a ≤ S4096x16.size a
  h_S4096x16 : 0 < S4096x16.numel
  shapeCasts_S16384x4096_S4x4096x4096 : S16384x4096.ShapeCasts S4x4096x4096
  dot_S256x4096_S4096x16_S256x16_1_0_0_1_n_n_wf : DotDims.WF S256x4096 S4096x16 S256x16 [1] [0] [0] [1] [] []
  dot_S256x16_S4096x16_S256x4096_1_1_0_0_n_n_wf : DotDims.WF S256x16 S4096x16 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S4096x16.size a
  hwx0_1 : ∀ i : grid0.Coords, EltTy.bits .f32 = 32 ∨ (Rect.block (s := S4096x16) S4096x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x16.size a ≤ S4096x16.size a
  hwx0_2 : ∀ i : grid0.Coords, EltTy.bits .f32 = 32 ∨ (Rect.block (s := S4096x16) S4096x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .f32 = 32 ∨ (Rect.block (s := S16384x4096) S256x4096.size (cc0_transform_3 i) (hinb0_3 i)).WholeWords (EltTy.packing .f32)

variable [Facts₀]

def dot_S256x4096_S4096x16_S256x16_1_0_0_1_n_n : DotDims S256x4096 S4096x16 S256x16 where
  lhsContracting := [1]
  rhsContracting := [0]
  lhsNonContracting := [0]
  rhsNonContracting := [1]
  lhsBatch := []
  rhsBatch := []
  wf := dot_S256x4096_S4096x16_S256x16_1_0_0_1_n_n_wf
def dot_S256x16_S4096x16_S256x4096_1_1_0_0_n_n : DotDims S256x16 S4096x16 S256x4096 where
  lhsContracting := [1]
  rhsContracting := [1]
  lhsNonContracting := [0]
  rhsNonContracting := [0]
  lhsBatch := []
  rhsBatch := []
  wf := dot_S256x16_S4096x16_S256x4096_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096x16 : Shape := ⟨2, ![4096, 16]⟩
abbrev S16x4096 : Shape := ⟨2, ![16, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x16, .f32⟩
  | .hbm, ⟨2, _⟩ => ⟨S4096x16, .f32⟩
  | .hbm, ⟨3, _⟩ => ⟨S16x4096, .f32⟩
  | .hbm, ⟨4, _⟩ => ⟨S4096x4096, .f32⟩
  | .hbm, ⟨5, _⟩ => ⟨S4x4096x4096, .f32⟩
  | .hbm, ⟨6, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  transposes_S4096x16_S16x4096_1_0 : S4096x16.Transposes [1, 0] S16x4096
  dot_S4096x16_S16x4096_S4096x4096_1_0_0_1_n_n_wf : DotDims.WF S4096x16 S16x4096 S4096x4096 [1] [0] [0] [1] [] []
  dot_S4x4096x4096_S4096x4096_S4x4096x4096_2_1_01_0_n_n_wf : DotDims.WF S4x4096x4096 S4096x4096 S4x4096x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.LowRankLaw.lean ====
/-
  The mathematics of the certificate, free of any program.

  For an input e of shape [4, 4096, 4096] and two factors A, B of shape [4096, 16], the reference forms the dense matrix
  U(j, d) = Σ_r A(j, r) · B(d, r) and returns e(b, s, j) + Σ_d e(b, s, d) · U(j, d) (`dense`).  The kernel never forms U: on
  the rows x = e read as a [16384, 4096] matrix it first contracts a row with B, t(r) = Σ_d x(row, d) · B(d, r), and then
  with A, returning x(row, j) + Σ_r t(r) · A(j, r) (`factoredRows`).

  The two agree by distributing the outer factor over the inner sum and exchanging the two finite sums.  Distributivity is
  not a law of the extended reals in general (it fails when an infinity meets a sum of opposite signs), so the law is
  proved for REAL entries: each extended real that is the image of a real is replaced by that real, the embeddings are
  pushed outwards through products and finite sums, and the identity is then one of the real field.
-/
import Idealize.ShloMosaic.PureOps.Ideal
import Idealize.ShloMosaic.Lib.ValueIdx
import Idealize.ShloMosaic.Lib.Pipeline.Value

noncomputable section

namespace LowRank

open Idealize.ShloMosaic Idealize.ShloMosaic.ValueIdx

/-- The input and the result: a batch of 4 matrices of 4096 rows and 4096 columns. -/
abbrev SBatch : Shape := ⟨3, ![4, 4096, 4096]⟩
/-- The same entries as 16384 rows of 4096 columns. -/
abbrev SRows : Shape := ⟨2, ![16384, 4096]⟩
/-- A factor: 4096 rows of 16 columns. -/
abbrev SFactor : Shape := ⟨2, ![4096, 16]⟩

/-- A finite sum of embedded reals is the embedded sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The law over the reals: contracting x with b and then with a is contracting x with the product of a and b. -/
theorem factored_eq_dense_real {D R : Type*} [Fintype D] [Fintype R] (x : D → ℝ) (a : R → ℝ) (b : D → R → ℝ) :
    ∑ r, (∑ d, x d * b d r) * a r = ∑ d, x d * ∑ r, a r * b d r := by
  simp only [Finset.sum_mul, Finset.mul_sum]
  rw [Finset.sum_comm]
  refine Finset.sum_congr rfl fun d _ => Finset.sum_congr rfl fun r _ => ?_
  ring

/-- The same law on the extended reals, for entries that are all real. -/
theorem factored_eq_dense {D R : Type*} [Fintype D] [Fintype R] (x : D → EReal) (a : R → EReal) (b : D → R → EReal)
    (hx : ∀ d, ∃ v : ℝ, x d = (v : EReal)) (ha : ∀ r, ∃ v : ℝ, a r = (v : EReal))
    (hb : ∀ d r, ∃ v : ℝ, b d r = (v : EReal)) :
    ∑ r, (∑ d, x d * b d r) * a r = ∑ d, x d * ∑ r, a r * b d r := by
  choose x' hx' using hx
  choose a' ha' using ha
  choose b' hb' using hb
  simp only [hx', ha', hb', ← EReal.coe_mul, coe_sum]
  exact congrArg _ (factored_eq_dense_real x' a' b')

/-- What the reference computes: e plus e times the transpose of the dense matrix A·Bᵀ. -/
def dense (e : SBatch.Idx → EReal) (A B : SFactor.Idx → EReal) : SBatch.Idx → EReal := fun i =>
  e i + ∑ d : Fin 4096, e (ix3 (i 0) (i 1) d) * ∑ r : Fin 16, A (ix2 (i 2) r) * B (ix2 d r)

/-- What the kernel computes on the rows: x plus (x·B)·Aᵀ, the 4096-by-4096 matrix never formed. -/
def factoredRows (x : SRows.Idx → EReal) (A B : SFactor.Idx → EReal) : SRows.Idx → EReal := fun i =>
  x i + ∑ r : Fin 16, (∑ d : Fin 4096, x (ix2 (i 0) d) * B (ix2 d r)) * A (ix2 (i 1) r)

/-- Row b·4096 + s of the row form is row (b, s) of the batch form. -/
def rowsOf (e : SBatch.Idx → EReal) : SRows.Idx → EReal := fun i =>
  e (ix3 ⟨(i 0).val / 4096, by have := (i 0).isLt; show _ < 4; change (i 0).val < 16384 at this; omega⟩
    ⟨(i 0).val % 4096, Nat.mod_lt _ (by norm_num)⟩ (i 1))

/-- Entry (b, s, j) of the batch form read off the row form. -/
def batchOf (y : SRows.Idx → EReal) : SBatch.Idx → EReal := fun i =>
  y (ix2 ⟨(i 0).val * 4096 + (i 1).val, by
      have h0 : (i 0).val < 4 := (i 0).isLt
      have h1 : (i 1).val < 4096 := (i 1).isLt
      omega⟩ (i 2))

/-- Reshaping the batch form to 16384 rows keeps every entry's row-major position: row b·4096 + s is row (b, s). -/
theorem shapeCast_eq_rowsOf (e : SBatch.Idx → EReal) (h : SBatch.ShapeCasts SRows) : shapeCast SRows e h = rowsOf e := by
  funext i
  have hi0 : (i 0).val < 16384 := (i 0).isLt
  unfold rowsOf
  refine shapeCast_apply e h i _ ?_
  rw [Shape.rowMajor_val_three, Shape.rowMajor_val_two]
  show ((i 0).val / 4096 * 4096 + (i 0).val % 4096) * 4096 + (i 1).val = (i 0).val * 4096 + (i 1).val
  omega

/-- Reshaping 16384 rows back to the batch form likewise: entry (b, s, j) is entry (b·4096 + s, j). -/
theorem shapeCast_eq_batchOf (y : SRows.Idx → EReal) (h : SRows.ShapeCasts SBatch) : shapeCast SBatch y h = batchOf y := by
  funext i
  unfold batchOf
  refine shapeCast_apply y h i _ ?_
  rw [Shape.rowMajor_val_three, Shape.rowMajor_val_two]
  rfl

/-- For real entries, the kernel's factored form on the rows, read back as a batch, is the reference's dense form. -/
theorem batchOf_factoredRows (e : SBatch.Idx → EReal) (A B : SFactor.Idx → EReal)
    (he : ∀ i, ∃ v : ℝ, e i = (v : EReal)) (hA : ∀ i, ∃ v : ℝ, A i = (v : EReal)) (hB : ∀ i, ∃ v : ℝ, B i = (v : EReal)) :
    batchOf (factoredRows (rowsOf e) A B) = dense e A B := by
  funext i
  obtain ⟨b, s, j, rfl⟩ : ∃ (b : Fin 4) (s : Fin 4096) (j : Fin 4096), i = ix3 b s j := ⟨i 0, i 1, i 2, eq_ix3 i⟩
  have hb : b.val < 4 := b.isLt
  have hs : s.val < 4096 := s.isLt
  have hrow : ∀ d : Fin 4096, rowsOf e (ix2 (⟨b.val * 4096 + s.val, by omega⟩ : Fin 16384) d) = e (ix3 b s d) := fun d => by
    unfold rowsOf
    refine congrArg e (funext fun a => Fin.ext ?_)
    match a with
    | ⟨0, _⟩ => show (b.val * 4096 + s.val) / 4096 = b.val; omega
    | ⟨1, _⟩ => show (b.val * 4096 + s.val) % 4096 = s.val; omega
    | ⟨2, _⟩ => rfl
  show rowsOf e (ix2 (⟨b.val * 4096 + s.val, _⟩ : Fin 16384) j)
      + ∑ r : Fin 16, (∑ d : Fin 4096, rowsOf e (ix2 (⟨b.val * 4096 + s.val, _⟩ : Fin 16384) d) * B (ix2 d r)) * A (ix2 j r)
    = e (ix3 b s j) + ∑ d : Fin 4096, e (ix3 b s d) * ∑ r : Fin 16, A (ix2 j r) * B (ix2 d r)
  simp only [hrow]
  exact congrArg _ (factored_eq_dense (fun d => e (ix3 b s d)) (fun r => A (ix2 j r)) (fun d r => B (ix2 d r))
    (fun d => he _) (fun r => hA _) (fun d r => hB _))

end LowRank

end
-- ==== Proof.RealEntries.lean ====
/-
  What the precondition says of the inputs: every entry of e, A and B is a real number.

  The precondition is the conjunction of three tests, one per input, each asking that the absolute value of every entry be
  strictly below plus infinity.  On the extended reals the absolute value max(x, −x) of either infinity is plus infinity, so
  the strict inequality excludes both and leaves exactly the entries that are embedded reals.
-/
import proofs.«171479_j10359461118153_1_alg».proof.Pre_finite_inputs
import Idealize.ShloMosaic.Lib.ReduceAll
import Idealize.ShloMosaic.Lib.ValueIdx
import Idealize.ShloMosaic.PureOps.Ideal.Laws

noncomputable section

namespace Cert.Pre_finite_inputs.RealEntries

open Idealize.ShloMosaic Idealize.ShloMosaic.ValueIdx Cert.Pre_finite_inputs

/-- The bound the test compares against denotes plus infinity. -/
theorem bound_eq_top : Ideal.ofBits .f32 0x7F800000#32 = (⊤ : EReal) := by
  simp [Ideal.ofBits, Ideal.ieee]

/-- An extended real whose absolute value is strictly below plus infinity is a real. -/
theorem real_of_abs_lt_bound (x : EReal) (h : Ideal.cmp .olt (max x (-x)) (Ideal.ofBits .f32 0x7F800000#32) = 1#1) :
    ∃ v : ℝ, x = (v : EReal) := by
  rw [bound_eq_top] at h
  induction x using EReal.rec with
  | bot => simp [Ideal.cmp] at h
  | coe v => exact ⟨v, rfl⟩
  | top => simp [Ideal.cmp] at h

variable [Facts]
open Facts

/-- The test's result has a single index. -/
instance : Subsingleton S_.Idx := ⟨fun a b => funext fun d => d.elim0⟩

/-- If the precondition's word is one, every entry of each of the three inputs is a real. -/
theorem entries_real (e : FVec Ideal S4x4096x4096 .f32) (A B : FVec Ideal S4096x16 .f32)
    (h : fn (F := Ideal) e A B = fun _ => 1#1) :
    (∀ i, ∃ v : ℝ, e i = (v : EReal)) ∧ (∀ i, ∃ v : ℝ, A i = (v : EReal)) ∧ (∀ i, ∃ v : ℝ, B i = (v : EReal)) := by
  have h0 := congrFun h ix0
  dsimp only [fn] at h0
  obtain ⟨heA, hB⟩ := IntOp.andi_eq_one.1 h0
  obtain ⟨he, hA⟩ := IntOp.andi_eq_one.1 heA
  exact ⟨fun i => real_of_abs_lt_bound (e i) (Host.reduce_andi_all _ _ _ _ _ he i),
    fun i => real_of_abs_lt_bound (A i) (Host.reduce_andi_all _ _ _ _ _ hA i),
    fun i => real_of_abs_lt_bound (B i) (Host.reduce_andi_all _ _ _ _ _ hB i)⟩

end Cert.Pre_finite_inputs.RealEntries

end
-- ==== Proof.ReferenceDense.lean ====
/-
  The reference's result, entry by entry, is the dense form: e(b, s, j) plus the sum over d of e(b, s, d) times the (j, d)
  entry of A·Bᵀ, that entry itself the sum over r of A(j, r)·B(d, r).  The transpose of B only renames the two coordinates
  of B, and each of the two products reads its left factor along a row and its right factor along the contracted coordinate.
-/
import proofs.«171479_j10359461118153_1_alg».proof.Proof.Gen.ReferenceIdeal.Read
import proofs.«171479_j10359461118153_1_alg».proof.Proof.LowRankLaw

noncomputable section

namespace Cert.ReferenceIdeal.Dense

open Cert.ReferenceIdeal Cert.ReferenceIdeal.Gen Cert.ReferenceIdeal.Read Idealize.ShloMosaic Idealize.ShloMosaic.ValueIdx

/-- The reference's last stage is `LowRank.dense` of its three arguments. -/
theorem reference_eq_dense (e : FVec Ideal S4x4096x4096 .f32) (A B : FVec Ideal S4096x16 .f32) :
    val_main_v3 (F := Ideal) e A B = LowRank.dense e A B := by
  funext i
  obtain ⟨b, s, j, rfl⟩ : ∃ (b : Fin 4) (s : Fin 4096) (j : Fin 4096), i = ix3 b s j := ⟨i 0, i 1, i 2, eq_ix3 i⟩
  -- the left factor of the outer product is read along row (b, s)
  have outerLeft : ∀ d : Fin 4096, lidx_main_v2 (ix3 b s j) d = ix3 b s d := fun d => funext fun a => Fin.ext (by
    match a with | ⟨0, _⟩ => rfl | ⟨1, _⟩ => rfl | ⟨2, _⟩ => rfl)
  -- the dense matrix is read at (j, d): A along row j,
  have innerLeft : ∀ (d : Fin 4096) (r : Fin 16), lidx_main_v1 (ridx_main_v2 (ix3 b s j) d) r = ix2 j r := fun d r =>
    funext fun a => Fin.ext (by match a with | ⟨0, _⟩ => rfl | ⟨1, _⟩ => rfl)
  -- and the transposed B at (r, d), which is B at (d, r)
  have innerRight : ∀ (d : Fin 4096) (r : Fin 16), idx_main_v0 (ridx_main_v1 (ridx_main_v2 (ix3 b s j) d) r) = ix2 d r := fun d r =>
    funext fun a => Fin.ext (by match a with | ⟨0, _⟩ => rfl | ⟨1, _⟩ => rfl)
  rw [val_main_v3_apply, val_main_v2_apply]
  simp only [val_main_v1_apply, val_main_v0_apply, outerLeft, innerLeft, innerRight]
  rfl

end Cert.ReferenceIdeal.Dense

end
-- ==== Proof.KernelRows.lean ====
/-
  The kernel's result.

  One grid point handles 256 consecutive rows of the input read as a [16384, 4096] matrix.  On that block x the body forms
  t = x·B (256 by 16), then t·Aᵀ (256 by 4096), and stores x + t·Aᵀ.  Both products run on the matrix unit into a zero
  accumulator, so at the ideal values entry (p, r) of the first is the sum over d of x(p, d)·B(d, r), and entry (p, j) of the
  second the sum over r of t(p, r)·A(j, r); narrowing the factors to a shorter float format changes no ideal value.  Row p of
  the block's result therefore depends on row p of the block alone: it is row (256·t + p) of `LowRank.factoredRows` of the
  whole matrix.  The 64 blocks tile the 16384 rows, so after the region the output array is `factoredRows` of the row form of
  e, and the reshapes before and after the region carry the batch form to the row form and back.
-/
import proofs.«171479_j10359461118153_1_alg».proof.Proof.Gen.KernelIdeal.Frame
import proofs.«171479_j10359461118153_1_alg».proof.Proof.LowRankLaw
import Idealize.ShloMosaic.Lib.Pipeline.Value
import Idealize.ShloMosaic.Lib.ValueIdx
import Idealize.ShloMosaic.PureOps.Ideal.Laws

set_option maxRecDepth 16384

noncomputable section

namespace Cert.KernelIdeal.Rows

open Cert.KernelIdeal Cert.KernelIdeal.Gen Idealize.ShloMosaic Idealize.ShloMosaic.TcCoe Idealize.SL.Sem
open Idealize.ShloMosaic.ValueIdx
open Idealize.ShloMosaic.Pipeline (Dat)

/-! ## The two products read at an entry -/

/-- In the first product the left factor is read at the result's row and the contracted column; the right factor at the
    contracted row and the result's column. The next four lemmas say so coordinate by coordinate. -/
theorem lhsB_0 (i : S256x16.Idx) (q : dot_S256x4096_S4096x16_S256x16_1_0_0_1_n_n.contr.Idx) :
    (dot_S256x4096_S4096x16_S256x16_1_0_0_1_n_n.lhsIdx i q 0).val = (i 0).val := by
  unfold DotDims.lhsIdx
  rw [dif_neg (show ¬(0 : Fin S256x4096.rank) ∈ dot_S256x4096_S4096x16_S256x16_1_0_0_1_n_n.lhsBatch by decide), dif_pos (show (0 : Fin S256x4096.rank) ∈ dot_S256x4096_S4096x16_S256x16_1_0_0_1_n_n.lhsNonContracting by decide)]
  rfl
theorem lhsB_1 (i : S256x16.Idx) (q : dot_S256x4096_S4096x16_S256x16_1_0_0_1_n_n.contr.Idx) :
    (dot_S256x4096_S4096x16_S256x16_1_0_0_1_n_n.lhsIdx i q 1).val = (q ⟨0, by decide⟩).val :=
  dot_S256x4096_S4096x16_S256x16_1_0_0_1_n_n.lhsIdx_val_of_single rfl i q
theorem rhsB_0 (i : S256x16.Idx) (q : dot_S256x4096_S4096x16_S256x16_1_0_0_1_n_n.contr.Idx) :
    (dot_S256x4096_S4096x16_S256x16_1_0_0_1_n_n.rhsIdx i q 0).val = (q ⟨0, by decide⟩).val :=
  dot_S256x4096_S4096x16_S256x16_1_0_0_1_n_n.rhsIdx_val_of_single rfl i q
theorem rhsB_1 (i : S256x16.Idx) (q : dot_S256x4096_S4096x16_S256x16_1_0_0_1_n_n.contr.Idx) :
    (dot_S256x4096_S4096x16_S256x16_1_0_0_1_n_n.rhsIdx i q 1).val = (i 1).val := by
  unfold DotDims.rhsIdx
  rw [dif_neg (show ¬(1 : Fin S4096x16.rank) ∈ dot_S256x4096_S4096x16_S256x16_1_0_0_1_n_n.rhsBatch by decide), dif_pos (show (1 : Fin S4096x16.rank) ∈ dot_S256x4096_S4096x16_S256x16_1_0_0_1_n_n.rhsNonContracting by decide)]
  rfl

/-- Entry (p, r) of a block times B: the sum over the 4096 columns d of x(p, d)·B(d, r). -/
theorem blockTimesB_apply (x : FVec Ideal S256x4096 .bf16) (Bm : FVec Ideal S4096x16 .bf16) (p : Fin 256) (r : Fin 16) :
    matmul dot_S256x4096_S4096x16_S256x16_1_0_0_1_n_n none x Bm (constant (F := Ideal) S256x16 .f32 0x00000000#32) (ix2 p r)
      = ∑ d : Fin 4096, x (ix2 p d) * Bm (ix2 d r) := by
  simp only [matmul]
  rw [Ideal.matmul_constant_zero_apply, ← Equiv.sum_comp (contrEquiv1 dot_S256x4096_S4096x16_S256x16_1_0_0_1_n_n 4096 rfl rfl).symm]
  refine Finset.sum_congr rfl fun k _ => ?_
  have hk := contrEquiv1_symm_val dot_S256x4096_S4096x16_S256x16_1_0_0_1_n_n 4096 rfl rfl k
  have el : dot_S256x4096_S4096x16_S256x16_1_0_0_1_n_n.lhsIdx (ix2 p r) ((contrEquiv1 dot_S256x4096_S4096x16_S256x16_1_0_0_1_n_n 4096 rfl rfl).symm k) = ix2 p k := funext fun a => Fin.ext (by
    match a with
    | ⟨0, _⟩ => exact lhsB_0 _ _
    | ⟨1, _⟩ => exact (lhsB_1 _ _).trans hk)
  have er : dot_S256x4096_S4096x16_S256x16_1_0_0_1_n_n.rhsIdx (ix2 p r) ((contrEquiv1 dot_S256x4096_S4096x16_S256x16_1_0_0_1_n_n 4096 rfl rfl).symm k) = ix2 k r := funext fun a => Fin.ext (by
    match a with
    | ⟨0, _⟩ => exact (rhsB_0 _ _).trans hk
    | ⟨1, _⟩ => exact rhsB_1 _ _)
  rw [el, er]

/-- In the second product both factors are contracted along their columns: the left factor is read at the result's row, the
    right factor at the row named by the result's COLUMN. Again coordinate by coordinate. -/
theorem lhsA_0 (i : S256x4096.Idx) (q : dot_S256x16_S4096x16_S256x4096_1_1_0_0_n_n.contr.Idx) :
    (dot_S256x16_S4096x16_S256x4096_1_1_0_0_n_n.lhsIdx i q 0).val = (i 0).val := by
  unfold DotDims.lhsIdx
  rw [dif_neg (show ¬(0 : Fin S256x16.rank) ∈ dot_S256x16_S4096x16_S256x4096_1_1_0_0_n_n.lhsBatch by decide), dif_pos (show (0 : Fin S256x16.rank) ∈ dot_S256x16_S4096x16_S256x4096_1_1_0_0_n_n.lhsNonContracting by decide)]
  rfl
theorem lhsA_1 (i : S256x4096.Idx) (q : dot_S256x16_S4096x16_S256x4096_1_1_0_0_n_n.contr.Idx) :
    (dot_S256x16_S4096x16_S256x4096_1_1_0_0_n_n.lhsIdx i q 1).val = (q ⟨0, by decide⟩).val :=
  dot_S256x16_S4096x16_S256x4096_1_1_0_0_n_n.lhsIdx_val_of_single rfl i q
theorem rhsA_0 (i : S256x4096.Idx) (q : dot_S256x16_S4096x16_S256x4096_1_1_0_0_n_n.contr.Idx) :
    (dot_S256x16_S4096x16_S256x4096_1_1_0_0_n_n.rhsIdx i q 0).val = (i 1).val := by
  unfold DotDims.rhsIdx
  rw [dif_neg (show ¬(0 : Fin S4096x16.rank) ∈ dot_S256x16_S4096x16_S256x4096_1_1_0_0_n_n.rhsBatch by decide), dif_pos (show (0 : Fin S4096x16.rank) ∈ dot_S256x16_S4096x16_S256x4096_1_1_0_0_n_n.rhsNonContracting by decide)]
  rfl
theorem rhsA_1 (i : S256x4096.Idx) (q : dot_S256x16_S4096x16_S256x4096_1_1_0_0_n_n.contr.Idx) :
    (dot_S256x16_S4096x16_S256x4096_1_1_0_0_n_n.rhsIdx i q 1).val = (q ⟨0, by decide⟩).val :=
  dot_S256x16_S4096x16_S256x4096_1_1_0_0_n_n.rhsIdx_val_of_single rfl i q

/-- Entry (p, j) of t times the transpose of A: the sum over the 16 columns r of t(p, r)·A(j, r). -/
theorem timesATransposed_apply (t : FVec Ideal S256x16 .bf16) (Am : FVec Ideal S4096x16 .bf16) (p : Fin 256) (j : Fin 4096) :
    matmul dot_S256x16_S4096x16_S256x4096_1_1_0_0_n_n none t Am (constant (F := Ideal) S256x4096 .f32 0x00000000#32) (ix2 p j)
      = ∑ r : Fin 16, t (ix2 p r) * Am (ix2 j r) := by
  simp only [matmul]
  rw [Ideal.matmul_constant_zero_apply, ← Equiv.sum_comp (contrEquiv1 dot_S256x16_S4096x16_S256x4096_1_1_0_0_n_n 16 rfl rfl).symm]
  refine Finset.sum_congr rfl fun k _ => ?_
  have hk := contrEquiv1_symm_val dot_S256x16_S4096x16_S256x4096_1_1_0_0_n_n 16 rfl rfl k
  have el : dot_S256x16_S4096x16_S256x4096_1_1_0_0_n_n.lhsIdx (ix2 p j) ((contrEquiv1 dot_S256x16_S4096x16_S256x4096_1_1_0_0_n_n 16 rfl rfl).symm k) = ix2 p k := funext fun a => Fin.ext (by
    match a with
    | ⟨0, _⟩ => exact lhsA_0 _ _
    | ⟨1, _⟩ => exact (lhsA_1 _ _).trans hk)
  have er : dot_S256x16_S4096x16_S256x4096_1_1_0_0_n_n.rhsIdx (ix2 p j) ((contrEquiv1 dot_S256x16_S4096x16_S256x4096_1_1_0_0_n_n 16 rfl rfl).symm k) = ix2 j k := funext fun a => Fin.ext (by
    match a with
    | ⟨0, _⟩ => exact rhsA_0 _ _
    | ⟨1, _⟩ => exact (rhsA_1 _ _).trans hk)
  rw [el, er]

/-! ## What the body stores, entry by entry -/

/-- The stored block at (p, j): x(p, j) plus the sum over r of (the sum over d of x(p, d)·B(d, r)) times A(j, r). -/
theorem stored_apply (x : Vec Ideal S256x4096 .f32) (xB xA : Vec Ideal S4096x16 .f32) (p : Fin 256) (j : Fin 4096) :
    k0_pay1 (F := Ideal) x xB xA (ix2 p j)
      = x (ix2 p j) + ∑ r : Fin 16, (∑ d : Fin 4096, x (ix2 p d) * xB (ix2 d r)) * xA (ix2 j r) := by
  unfold k0_pay1
  rw [shapeCast_self]
  show x (ix2 p j) + matmul dot_S256x16_S4096x16_S256x4096_1_1_0_0_n_n none _ _ (constant (F := Ideal) S256x4096 .f32 0x00000000#32) (ix2 p j) = _
  rw [timesATransposed_apply]
  refine congrArg (x (ix2 p j) + ·) (Finset.sum_congr rfl fun r _ => ?_)
  show matmul dot_S256x4096_S4096x16_S256x16_1_0_0_1_n_n none _ _ (constant (F := Ideal) S256x16 .f32 0x00000000#32) (ix2 p r) * xA (ix2 j r) = _
  rw [blockTimesB_apply]
  rfl

/-- A block whose rows are rows 256·n … 256·n + 255 of a matrix X stores those rows of `factoredRows X A B`: the entry at
    (p, j) of the block is the entry at (256·n + p, j) of the whole result. -/
theorem stored_eq_factoredRows (X : FVec Ideal S16384x4096 .f32) (A B : FVec Ideal S4096x16 .f32)
    (x : Vec Ideal S256x4096 .f32) (xA xB : Vec Ideal S4096x16 .f32) (n : Nat)
    (hx : ∀ (y : S256x4096.Idx) (i : S16384x4096.Idx), (i 0).val = n * 256 + (y 0).val → (i 1).val = (y 1).val → x y = X i)
    (hA : xA = A) (hB : xB = B)
    (y : S256x4096.Idx) (i : S16384x4096.Idx) (hi0 : (i 0).val = n * 256 + (y 0).val) (hi1 : (i 1).val = (y 1).val) :
    k0_pay1 (F := Ideal) x xB xA y = LowRank.factoredRows X A B i := by
  subst hA hB
  obtain ⟨p, j, rfl⟩ : ∃ (p : Fin 256) (j : Fin 4096), y = ix2 p j := ⟨y 0, y 1, eq_ix2 y⟩
  rw [stored_apply]
  unfold LowRank.factoredRows
  have hrow : ∀ d : Fin 4096, x (ix2 p d) = X (ix2 (i 0) d) := fun d => hx _ _ hi0 rfl
  have hj : (i 1) = j := Fin.ext hi1
  rw [hx (ix2 p j) i hi0 hi1]
  simp only [hrow, hj]

variable (m : (ℓ : Loc nD τ sig) → Buf (Elt Ideal) ℓ) (ρ : Dev nD → PrngReg)

/-! ## From the blocks to the array -/

theorem offset_zero : (![0, 0] : Fin 2 → Nat) = fun _ => 0 := funext fun a => by fin_cases a <;> rfl

/-- Where each window's block sits at grid point t: the input block and the output block are block t of the rows and span all
    columns; the two factors are whole. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block of 256 rows is some point's. -/
theorem block_onto : ∀ n : Fin 64, ∃ t : Fin cfg0.N, t.val = n.val :=
  (by decide +kernel : ∀ n : Fin 64, ∃ t : Fin grid0.N, t.val = n.val)

/-- What point t writes back is block t of `factoredRows` of the arrays as the region finds them. -/
theorem flushed_eq (c : Dev nD) (t : Fin cfg0.N) :
    (dats m 0 c).flushed 3 t = ((cfg0.win 3).blk t).view.read (Elt Ideal)
      (LowRank.factoredRows (V m c main_v0) (V m c main_arg1) (V m c main_arg2)) := by
  show (cfg0.win 3).cut (grid0.coords t) ((dats m 0 c).after 3 t) = _
  rw [after0_3]
  unfold out0_3
  rw [View.canon_unit_zero offset_zero]
  simp only [View.ld_unit_zero (S := S256x4096) offset_zero, View.ld_unit_zero (S := S4096x16) offset_zero]
  obtain ⟨e00, e01, e10, e11, e20, e21, e30, e31⟩ := block_positions t
  funext y
  show k0_pay1 (F := Ideal) (iblk m c 0 t) (iblk m c 2 t) (iblk m c 1 t) y
    = LowRank.factoredRows (V m c main_v0) (V m c main_arg1) (V m c main_arg2) (((cfg0.win 3).blk t).view.emb y)
  refine stored_eq_factoredRows (V m c main_v0) (V m c main_arg1) (V m c main_arg2) (iblk m c 0 t) (iblk m c 1 t) (iblk m c 2 t)
    t.val ?_ ?_ ?_ y (((cfg0.win 3).blk t).view.emb y) ?_ ?_
  · intro y' i h0 h1
    show V m c main_v0 (((cfg0.win 0).blk t).view.emb y') = V m c main_v0 i
    refine congrArg _ (funext fun a => Fin.ext ?_)
    match a with
    | ⟨0, _⟩ => show win0_0.index t (0 : Fin 2) * 256 + 1 * (y' 0).val = (i 0).val; omega
    | ⟨1, _⟩ => show win0_0.index t (1 : Fin 2) * 4096 + 1 * (y' 1).val = (i 1).val; omega
  · funext z
    show V m c main_arg1 (((cfg0.win 1).blk t).view.emb z) = V m c main_arg1 z
    refine congrArg _ (funext fun a => Fin.ext ?_)
    match a with
    | ⟨0, _⟩ => show win0_1.index t (0 : Fin 2) * 4096 + 1 * (z 0).val = (z 0).val; omega
    | ⟨1, _⟩ => show win0_1.index t (1 : Fin 2) * 16 + 1 * (z 1).val = (z 1).val; omega
  · funext z
    show V m c main_arg2 (((cfg0.win 2).blk t).view.emb z) = V m c main_arg2 z
    refine congrArg _ (funext fun a => Fin.ext ?_)
    match a with
    | ⟨0, _⟩ => show win0_2.index t (0 : Fin 2) * 4096 + 1 * (z 0).val = (z 0).val; omega
    | ⟨1, _⟩ => show win0_2.index t (1 : Fin 2) * 16 + 1 * (z 1).val = (z 1).val; omega
  · show win0_3.index t (0 : Fin 2) * 256 + 1 * (y 0).val = t.val * 256 + (y 0).val; omega
  · show win0_3.index t (1 : Fin 2) * 4096 + 1 * (y 1).val = (y 1).val; omega

/-- An index of the output array lies in point t's block when each coordinate lies in the block's range on its axis. -/
theorem mem_block (t : Fin cfg0.N) (i : S16384x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v1).slice (win0_3.rect t)).set ↔ _
  rw [View.set_slice_whole, Rect.mem_set_unit]
  exact Iff.rfl

/-- Row i lies in the block of point i / 256: the 64 blocks of 256 rows tile the 16384 rows. -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := block_onto ⟨(i 0).val / 256, by omega⟩
  have ht' : t.val = (i 0).val / 256 := ht
  obtain ⟨-, -, -, -, -, -, e30, e31⟩ := block_positions t
  refine ⟨t, flush0_3 t, ?_⟩
  rw [mem_block]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

/-- After the region the output array is `factoredRows` of the arrays as the region found them. -/
theorem output_eq (c : Dev nD) :
    (dats m 0 c).arrAt 3 cfg0.N = LowRank.factoredRows (V m c main_v0) (V m c main_arg1) (V m c main_arg2) :=
  (dats m 0 c).arrAt_eq_of_cover 3 _ (fun t _ => flushed_eq m c t) covered

/-! ## The reshapes around the region -/

/-- The region finds the row form of e: the reshape before it keeps the row-major position of every entry. -/
theorem rows_eq (c : Dev nD) : V m c main_v0 = LowRank.rowsOf (m ((c : Thread nD τ).loc main_arg0)) := by
  have e : (V m c main_v0 : S16384x4096.Idx → EReal)
      = shapeCast S16384x4096 (m ((c : Thread nD τ).loc main_arg0)) shapeCasts_S4x4096x4096_S16384x4096 := by
    show StableHlo.after hostOps0 (fun b => m (c, b)) (Proc.devRef .tc main_v0) = _
    after_results
    rfl
  exact e.trans (LowRank.shapeCast_eq_rowsOf _ _)

/-- The program's result is the batch form of the output array: the reshape after the region again keeps row-major positions. -/
theorem result_eq (c : Dev nD) :
    Pipeline.afterTail₀ cfgs (dats m) 0 (V0 m) [hostOps1] c main_v2 = LowRank.batchOf ((dats m 0 c).arrAt 3 cfg0.N) := by
  have e : (Pipeline.afterTail₀ cfgs (dats m) 0 (V0 m) [hostOps1] c main_v2 : S4x4096x4096.Idx → EReal)
      = shapeCast S4x4096x4096 ((dats m 0 c).arrAt 3 cfg0.N) shapeCasts_S16384x4096_S4x4096x4096 := by
    unfold Pipeline.afterTail₀
    show StableHlo.after hostOps1 _ (Proc.devRef .tc main_v2) = _
    after_results
    have hw : Pipeline.withArrays (cfgs 0).spec c (V0 m c) (fun w => (dats m 0 c).arrAt w (cfgs 0).N) (Proc.devRef .tc main_v1)
        = (dats m 0 c).arrAt 3 cfg0.N := Pipeline.withArrays_arr spec0 launch0.win.arr_inj c _ _ 3
    rw [hw]
    rfl
  exact e.trans (LowRank.shapeCast_eq_batchOf _ _)

/-! ## The run -/

/-- Every weakly fair execution of the program terminates with its result at the factored form of its arguments, read back as
    a batch, and the arguments unchanged. -/
theorem run : θ_run defs (onTc (τ := τ) (main (F := Ideal))) ⟨m, fun _ => 0, ρ⟩ fun r => ∀ c : Dev nD,
      r.2.mem ((c.tc : Thread nD τ).loc main_v2)
        = LowRank.batchOf (LowRank.factoredRows (LowRank.rowsOf (m ((c.tc : Thread nD τ).loc main_arg0)))
            (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨
      ((h c).2 main_v2 (Pipeline.mem_restRefs_of main_v2 (by decide) (by decide))).trans
        ((result_eq m c).trans (by rw [output_eq, rows_eq, V_main_arg1, V_main_arg2])),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Rows

end
-- ==== Proof.lean ====
/-
  The kernel adds to e its product with the transpose of the rank-16 matrix A·Bᵀ without forming that 4096-by-4096 matrix:
  on each block of 256 rows x of e (read as 16384 rows) it computes x + (x·B)·Aᵀ.  The reference forms U = A·Bᵀ and returns
  e + e·Uᵀ.  Entry by entry the kernel's value is x(j) + Σ_r (Σ_d x(d)·B(d, r))·A(j, r) and the reference's is
  x(j) + Σ_d x(d)·(Σ_r A(j, r)·B(d, r)); they agree by distributing and exchanging the two finite sums, which is valid because
  the precondition makes every entry a real number (Proof/LowRankLaw.lean, Proof/RealEntries.lean).

  The kernel's value is read off its frame run: what each grid point stores (Proof/KernelRows.lean, the two matrix products
  read at an entry), the 64 blocks tiling the rows, and the two reshapes around the region.  The reference's value is its run
  read one operation at a time (Proof/ReferenceDense.lean).  The three frames are the generated ones (the reference's its run
  with the result dropped), and the idealization rewrote nothing, so `preserves` is trivial.
-/
import proofs.«171479_j10359461118153_1_alg».proof.Defs
import proofs.«171479_j10359461118153_1_alg».proof.Proof.Gen.Kernel
import proofs.«171479_j10359461118153_1_alg».proof.Proof.Gen.Kernel.Skeleton
import proofs.«171479_j10359461118153_1_alg».proof.Proof.Gen.Kernel.Launch
import proofs.«171479_j10359461118153_1_alg».proof.Proof.Gen.Kernel.Points
import proofs.«171479_j10359461118153_1_alg».proof.Proof.Gen.Kernel.Frame
import proofs.«171479_j10359461118153_1_alg».proof.Proof.Gen.KernelIdeal
import proofs.«171479_j10359461118153_1_alg».proof.Proof.Gen.KernelIdeal.Skeleton
import proofs.«171479_j10359461118153_1_alg».proof.Proof.Gen.KernelIdeal.Launch
import proofs.«171479_j10359461118153_1_alg».proof.Proof.Gen.KernelIdeal.Points
import proofs.«171479_j10359461118153_1_alg».proof.Proof.Gen.KernelIdeal.Frame
import proofs.«171479_j10359461118153_1_alg».proof.Proof.Gen.ReferenceIdeal
import proofs.«171479_j10359461118153_1_alg».proof.Proof.Gen.Pre_finite_inputs
import proofs.«171479_j10359461118153_1_alg».proof.Proof.Gen.ReferenceIdeal.Run
import proofs.«171479_j10359461118153_1_alg».proof.Proof.Gen.ReferenceIdeal.Read
import proofs.«171479_j10359461118153_1_alg».proof.Proof.LowRankLaw
import proofs.«171479_j10359461118153_1_alg».proof.Proof.RealEntries
import proofs.«171479_j10359461118153_1_alg».proof.Proof.ReferenceDense
import proofs.«171479_j10359461118153_1_alg».proof.Proof.KernelRows
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the dense form of the arguments: the kernel's factored form equals it on real entries, which the
    precondition provides; the reference's last stage is it outright. -/
theorem algebraic : Cert.algebraic_KernelIdeal_ReferenceIdeal := by
  intro m ρ m' ρ' hpre hagree
  refine ⟨fun c => LowRank.dense (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩) (Cert.KernelIdeal.Rows.run m ρ)
    obtain ⟨he, hA, hB⟩ := Cert.Pre_finite_inputs.RealEntries.entries_real _ _ _ (hpre c)
    exact LowRank.batchOf_factoredRows _ _ _ he hA hB
  · refine (θ_run Cert.ReferenceIdeal.defs _ _).mono (fun r h c => ⟨?_, (h c).2⟩)
      (Cert.ReferenceIdeal.Value.run (F := Ideal) m' ρ')
    rw [(h c).1, Cert.ReferenceIdeal.Read.val_main_v3_eq, Cert.ReferenceIdeal.Dense.reference_eq_dense,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
